-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v60)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v60) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S192x64 : Shape := ⟨2, ![192, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S192x64 : S_.BroadcastsInDim S192x64 (![] : Fin 0 → Fin S192x64.rank)
  reducesTo_S192x64_S_d0_1 : S192x64.ReducesTo [0, 1] S_
  bcast_S_S64 : S_.BroadcastsInDim S64 (![] : Fin 0 → Fin S64.rank)
  reducesTo_S64_S_d0 : S64.ReducesTo [0] S_

variable [Facts]

def fn {F : FTy → Type} [FloatOps F] (main_arg0 : FVec F S100000x64 .f32) (main_arg1 : IVec S2x1600000 32) (main_arg2 : FVec F S192x64 .f32) (main_arg3 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S192x64 .f32 := Host.absf main_arg2
  let main_cst_0 : FVec F S_ .f32 := constant S_ .f32 0x7F800000#32
  let main_v5 : FVec F S192x64 .f32 := broadcastInDim S192x64 ![] bcast_S_S192x64 main_cst_0
  let main_v6 : IVec S192x64 1 := cmpf .olt main_v4 main_v5
  let main_c_1 : IVec S_ 1 := constantI S_ 1 1#1
  let main_v7 : IVec S_ 1 := (fun x v => Host.reduce IntOp.andi x v reducesTo_S192x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  main_v13
-- ==== Kernel.lean ====
abbrev S100000x64 : Shape := ⟨2, ![100000, 64]⟩
abbrev S2x1600000 : Shape := ⟨2, ![2, 1600000]⟩
abbrev S192x64 : Shape := ⟨2, ![192, 64]⟩
abbrev S64 : Shape := ⟨1, ![64]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S1700000x64 : Shape := ⟨2, ![1700000, 64]⟩
abbrev S100000x192 : Shape := ⟨2, ![100000, 192]⟩
abbrev S1x64 : Shape := ⟨2, ![1, 64]⟩
abbrev S10000x192 : Shape := ⟨2, ![10000, 192]⟩
abbrev S10000x64 : Shape := ⟨2, ![10000, 64]⟩

abbrev nBuf : Space → Nat
  | .hbm => 79
  | .vmem => 6
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S192x64, .f32⟩
  | .hbm, ⟨3, _⟩ => ⟨S64, .f32⟩
  | .hbm, ⟨4, _⟩ => ⟨S1x1600000, .i32⟩
  | .hbm, ⟨5, _⟩ => ⟨S1600000, .i32⟩
  | .hbm, ⟨6, _⟩ => ⟨S1x1600000, .i32⟩
  | .hbm, ⟨7, _⟩ => ⟨S1600000, .i32⟩
  | .hbm, ⟨8, _⟩ => ⟨S100000, .i32⟩
  | .hbm, ⟨9, _⟩ => ⟨S1700000, .i32⟩
  | .hbm, ⟨10, _⟩ => ⟨S1700000, .i32⟩
  | .hbm, ⟨11, _⟩ => ⟨S_, .f32⟩
  | .hbm, ⟨12, _⟩ => ⟨S1700000, .f32⟩
  | .hbm, ⟨13, _⟩ => ⟨S_, .f32⟩
  | .hbm, ⟨14, _⟩ => ⟨S100000, .f32⟩
  | .hbm, ⟨15, _⟩ => ⟨S1700000x1, .i32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S100000, .i1⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S_, .i32⟩
  | .hbm, ⟨25, _⟩ => ⟨S1700000, .i32⟩
  | .hbm, ⟨26, _⟩ => ⟨S1700000, .i1⟩
  | .hbm, ⟨27, _⟩ => ⟨S_, .i32⟩
  | .hbm, ⟨28, _⟩ => ⟨S1700000, .i32⟩
  | .hbm, ⟨29, _⟩ => ⟨S1700000, .i32⟩
  | .hbm, ⟨30, _⟩ => ⟨S1700000, .i32⟩
  | .hbm, ⟨31, _⟩ => ⟨S1700000x1, .i32⟩
  | .hbm, ⟨32, _⟩ => ⟨S1700000, .f32⟩
  | .hbm, ⟨33, _⟩ => ⟨S1700000, .f32⟩
  | .hbm, ⟨34, _⟩ => ⟨S_, .i32⟩
  | .hbm, ⟨35, _⟩ => ⟨S1700000, .i32⟩
  | .hbm, ⟨36, _⟩ => ⟨S1700000, .i1⟩
  | .hbm, ⟨37, _⟩ => ⟨S_, .i32⟩
  | .hbm, ⟨38, _⟩ => ⟨S1700000, .i32⟩
  | .hbm, ⟨39, _⟩ => ⟨S1700000, .i32⟩
  | .hbm, ⟨40, _⟩ => ⟨S1700000, .i32⟩
  | .hbm, ⟨41, _⟩ => ⟨S1700000x1, .i32⟩
  | .hbm, ⟨42, _⟩ => ⟨S1700000, .f32⟩
  | .hbm, ⟨43, _⟩ => ⟨S1700000, .f32⟩
  | .hbm, ⟨44, _⟩ => ⟨S1700000x1, .f32⟩
  | .hbm, ⟨45, _⟩ => ⟨S_, .i32⟩
  | .hbm, ⟨46, _⟩ => ⟨S1700000, .i32⟩
  | .hbm, ⟨47, _⟩ => ⟨S1700000, .i1⟩
  | .hbm, ⟨48, _⟩ => ⟨S_, .i32⟩
  | .hbm, ⟨49, _⟩ => ⟨S1700000, .i32⟩
  | .hbm, ⟨50, _⟩ => ⟨S1700000, .i32⟩
  | .hbm, ⟨51, _⟩ => ⟨S1700000, .i32⟩
  | .hbm, ⟨52, _⟩ => ⟨S1700000x1, .i32⟩
  | .hbm, ⟨53, _⟩ => ⟨S1700000x64, .f32⟩
  | .hbm, ⟨54, _⟩ => ⟨S1700000x64, .f32⟩
  | .hbm, ⟨55, _⟩ => ⟨S1700000x64, .f32⟩
  | .hbm, ⟨56, _⟩ => ⟨S_, .f32⟩
  | .hbm, ⟨57, _⟩ => ⟨S100000x64, .f32⟩
  | .hbm, ⟨58, _⟩ => ⟨S1700000x1, .i32⟩
  | .hbm, ⟨59, _⟩ => ⟨S100000x64, .f32⟩
  | .hbm, ⟨60, _⟩ => ⟨S1700000x1, .f32⟩
  | .hbm, ⟨61, _⟩ => ⟨S_, .i32⟩
  | .hbm, ⟨62, _⟩ => ⟨S1700000, .i32⟩
  | .hbm, ⟨63, _⟩ => ⟨S1700000, .i1⟩
  | .hbm, ⟨64, _⟩ => ⟨S_, .i32⟩
  | .hbm, ⟨65, _⟩ => ⟨S1700000, .i32⟩
  | .hbm, ⟨66, _⟩ => ⟨S1700000, .i32⟩
  | .hbm, ⟨67, _⟩ => ⟨S1700000, .i32⟩
  | .hbm, ⟨68, _⟩ => ⟨S1700000x1, .i32⟩
  | .hbm, ⟨69, _⟩ => ⟨S1700000x64, .f32⟩
  | .hbm, ⟨70, _⟩ => ⟨S1700000x64, .f32⟩
  | .hbm, ⟨71, _⟩ => ⟨S1700000x64, .f32⟩
  | .hbm, ⟨72, _⟩ => ⟨S_, .f32⟩
  | .hbm, ⟨73, _⟩ => ⟨S100000x64, .f32⟩
  | .hbm, ⟨74, _⟩ => ⟨S1700000x1, .i32⟩
  | .hbm, ⟨75, _⟩ => ⟨S100000x64, .f32⟩
  | .hbm, ⟨76, _⟩ => ⟨S100000x192, .f32⟩
  | .hbm, ⟨77, _⟩ => ⟨S1x64, .f32⟩
  | .hbm, ⟨78, _⟩ => ⟨S100000x64, .f32⟩
  | .local _ .vmem, ⟨0, _⟩ => ⟨S10000x192, .f32⟩
  | .local _ .vmem, ⟨1, _⟩ => ⟨S10000x192, .f32⟩
  | .local _ .vmem, ⟨2, _⟩ => ⟨S192x64, .f32⟩
  | .local _ .vmem, ⟨3, _⟩ => ⟨S1x64, .f32⟩
  | .local _ .vmem, ⟨4, _⟩ => ⟨S10000x64, .f32⟩
  | .local _ .vmem, ⟨5, _⟩ => ⟨S10000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_c : Ref sig .tc := ⟨.hbm, 24, rfl⟩
abbrev main_v16 : Ref sig .tc := ⟨.hbm, 25, rfl⟩
abbrev main_v17 : Ref sig .tc := ⟨.hbm, 26, rfl⟩
abbrev main_c_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_c_4 : Ref sig .tc := ⟨.hbm, 34, rfl⟩
abbrev main_v24 : Ref sig .tc := ⟨.hbm, 35, rfl⟩
abbrev main_v25 : Ref sig .tc := ⟨.hbm, 36, rfl⟩
abbrev main_c_5 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_c_6 : Ref sig .tc := ⟨.hbm, 45, rfl⟩
abbrev main_v33 : Ref sig .tc := ⟨.hbm, 46, rfl⟩
abbrev main_v34 : Ref sig .tc := ⟨.hbm, 47, rfl⟩
abbrev main_c_7 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_cst_8 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_c_9 : Ref sig .tc := ⟨.hbm, 61, rfl⟩
abbrev main_v46 : Ref sig .tc := ⟨.hbm, 62, rfl⟩
abbrev main_v47 : Ref sig .tc := ⟨.hbm, 63, rfl⟩
abbrev main_c_10 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_cst_11 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S192x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  concatenates_S100000x64_S100000x64_S100000x64_S100000x192_d1 : Shape.Concatenates [S100000x64, S100000x64, S100000x64] S100000x192 1
  shapeCasts_S64_S1x64 : S64.ShapeCasts S1x64
  inb_S10000x192_S10000x192_0_0 : ∀ a, (![0, 0] : Fin 2 → Nat) a + S10000x192.size a ≤ S10000x192.size a
  h_S10000x192 : 0 < S10000x192.numel
  shapeCasts_S10000x192_S10000x192 : S10000x192.ShapeCasts S10000x192
  bitsLt_bf16_f32 : FTy.bits .bf16 < FTy.bits .f32
  inb_S192x64_S192x64_0_0 : ∀ a, (![0, 0] : Fin 2 → Nat) a + S192x64.size a ≤ S192x64.size a
  h_S192x64 : 0 < S192x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  inb_S10000x64_S10000x64_0_0 : ∀ a, (![0, 0] : Fin 2 → Nat) a + S10000x64.size a ≤ S10000x64.size a
  h_S10000x64 : 0 < S10000x64.numel
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S10000x192_S192x64_S10000x64_1_0_0_1_n_n_wf : DotDims.WF S10000x192 S192x64 S10000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x192.size a ≤ S100000x192.size a
  hwx0_0 : ∀ i : grid0.Coords, EltTy.bits .f32 = 32 ∨ (Rect.block (s := S100000x192) S10000x192.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S192x64.size a ≤ S192x64.size a
  hwx0_1 : ∀ i : grid0.Coords, EltTy.bits .f32 = 32 ∨ (Rect.block (s := S192x64) S192x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x64.size a ≤ S100000x64.size a
  hwx0_3 : ∀ i : grid0.Coords, EltTy.bits .f32 = 32 ∨ (Rect.block (s := S100000x64) S10000x64.size (cc0_transform_3 i) (hinb0_3 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S10000x192_S192x64_S10000x64_1_0_0_1_n_n : DotDims S10000x192 S192x64 S10000x64 where
  lhsContracting := [1]
  rhsContracting := [0]
  lhsNonContracting := [0]
  rhsNonContracting := [1]
  lhsBatch := []
  rhsBatch := []
  wf := dot_S10000x192_S192x64_S10000x64_1_0_0_1_n_n_wf

abbrev win0_0 : Pipeline.Window sig grid0 :=
  Pipeline.Window.ofSpec (Memref.whole main_v58) S10000x192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S192x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v59) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v60) S10000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S192x64 : Shape := ⟨2, ![192, 64]⟩
abbrev S64 : Shape := ⟨1, ![64]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S1700000x64 : Shape := ⟨2, ![1700000, 64]⟩
abbrev S100000x192 : Shape := ⟨2, ![100000, 192]⟩
abbrev S1x64 : Shape := ⟨2, ![1, 64]⟩

abbrev nBuf : Space → Nat
  | .hbm => 81
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S192x64, .f32⟩
  | .hbm, ⟨3, _⟩ => ⟨S64, .f32⟩
  | .hbm, ⟨4, _⟩ => ⟨S1x1600000, .i32⟩
  | .hbm, ⟨5, _⟩ => ⟨S1600000, .i32⟩
  | .hbm, ⟨6, _⟩ => ⟨S1x1600000, .i32⟩
  | .hbm, ⟨7, _⟩ => ⟨S1600000, .i32⟩
  | .hbm, ⟨8, _⟩ => ⟨S100000, .i32⟩
  | .hbm, ⟨9, _⟩ => ⟨S1700000, .i32⟩
  | .hbm, ⟨10, _⟩ => ⟨S1700000, .i32⟩
  | .hbm, ⟨11, _⟩ => ⟨S_, .f32⟩
  | .hbm, ⟨12, _⟩ => ⟨S1700000, .f32⟩
  | .hbm, ⟨13, _⟩ => ⟨S_, .f32⟩
  | .hbm, ⟨14, _⟩ => ⟨S100000, .f32⟩
  | .hbm, ⟨15, _⟩ => ⟨S1700000x1, .i32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S100000, .i1⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S_, .i32⟩
  | .hbm, ⟨25, _⟩ => ⟨S1700000, .i32⟩
  | .hbm, ⟨26, _⟩ => ⟨S1700000, .i1⟩
  | .hbm, ⟨27, _⟩ => ⟨S_, .i32⟩
  | .hbm, ⟨28, _⟩ => ⟨S1700000, .i32⟩
  | .hbm, ⟨29, _⟩ => ⟨S1700000, .i32⟩
  | .hbm, ⟨30, _⟩ => ⟨S1700000, .i32⟩
  | .hbm, ⟨31, _⟩ => ⟨S1700000x1, .i32⟩
  | .hbm, ⟨32, _⟩ => ⟨S1700000, .f32⟩
  | .hbm, ⟨33, _⟩ => ⟨S1700000, .f32⟩
  | .hbm, ⟨34, _⟩ => ⟨S_, .i32⟩
  | .hbm, ⟨35, _⟩ => ⟨S1700000, .i32⟩
  | .hbm, ⟨36, _⟩ => ⟨S1700000, .i1⟩
  | .hbm, ⟨37, _⟩ => ⟨S_, .i32⟩
  | .hbm, ⟨38, _⟩ => ⟨S1700000, .i32⟩
  | .hbm, ⟨39, _⟩ => ⟨S1700000, .i32⟩
  | .hbm, ⟨40, _⟩ => ⟨S1700000, .i32⟩
  | .hbm, ⟨41, _⟩ => ⟨S1700000x1, .i32⟩
  | .hbm, ⟨42, _⟩ => ⟨S1700000, .f32⟩
  | .hbm, ⟨43, _⟩ => ⟨S1700000, .f32⟩
  | .hbm, ⟨44, _⟩ => ⟨S1700000x1, .f32⟩
  | .hbm, ⟨45, _⟩ => ⟨S_, .i32⟩
  | .hbm, ⟨46, _⟩ => ⟨S1700000, .i32⟩
  | .hbm, ⟨47, _⟩ => ⟨S1700000, .i1⟩
  | .hbm, ⟨48, _⟩ => ⟨S_, .i32⟩
  | .hbm, ⟨49, _⟩ => ⟨S1700000, .i32⟩
  | .hbm, ⟨50, _⟩ => ⟨S1700000, .i32⟩
  | .hbm, ⟨51, _⟩ => ⟨S1700000, .i32⟩
  | .hbm, ⟨52, _⟩ => ⟨S1700000x1, .i32⟩
  | .hbm, ⟨53, _⟩ => ⟨S1700000x64, .f32⟩
  | .hbm, ⟨54, _⟩ => ⟨S1700000x64, .f32⟩
  | .hbm, ⟨55, _⟩ => ⟨S1700000x64, .f32⟩
  | .hbm, ⟨56, _⟩ => ⟨S_, .f32⟩
  | .hbm, ⟨57, _⟩ => ⟨S100000x64, .f32⟩
  | .hbm, ⟨58, _⟩ => ⟨S1700000x1, .i32⟩
  | .hbm, ⟨59, _⟩ => ⟨S100000x64, .f32⟩
  | .hbm, ⟨60, _⟩ => ⟨S1700000x1, .f32⟩
  | .hbm, ⟨61, _⟩ => ⟨S_, .i32⟩
  | .hbm, ⟨62, _⟩ => ⟨S1700000, .i32⟩
  | .hbm, ⟨63, _⟩ => ⟨S1700000, .i1⟩
  | .hbm, ⟨64, _⟩ => ⟨S_, .i32⟩
  | .hbm, ⟨65, _⟩ => ⟨S1700000, .i32⟩
  | .hbm, ⟨66, _⟩ => ⟨S1700000, .i32⟩
  | .hbm, ⟨67, _⟩ => ⟨S1700000, .i32⟩
  | .hbm, ⟨68, _⟩ => ⟨S1700000x1, .i32⟩
  | .hbm, ⟨69, _⟩ => ⟨S1700000x64, .f32⟩
  | .hbm, ⟨70, _⟩ => ⟨S1700000x64, .f32⟩
  | .hbm, ⟨71, _⟩ => ⟨S1700000x64, .f32⟩
  | .hbm, ⟨72, _⟩ => ⟨S_, .f32⟩
  | .hbm, ⟨73, _⟩ => ⟨S100000x64, .f32⟩
  | .hbm, ⟨74, _⟩ => ⟨S1700000x1, .i32⟩
  | .hbm, ⟨75, _⟩ => ⟨S100000x64, .f32⟩
  | .hbm, ⟨76, _⟩ => ⟨S100000x192, .f32⟩
  | .hbm, ⟨77, _⟩ => ⟨S100000x64, .f32⟩
  | .hbm, ⟨78, _⟩ => ⟨S1x64, .f32⟩
  | .hbm, ⟨79, _⟩ => ⟨S100000x64, .f32⟩
  | .hbm, ⟨80, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_c : Ref sig .tc := ⟨.hbm, 24, rfl⟩
abbrev main_v16 : Ref sig .tc := ⟨.hbm, 25, rfl⟩
abbrev main_v17 : Ref sig .tc := ⟨.hbm, 26, rfl⟩
abbrev main_c_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_c_4 : Ref sig .tc := ⟨.hbm, 34, rfl⟩
abbrev main_v24 : Ref sig .tc := ⟨.hbm, 35, rfl⟩
abbrev main_v25 : Ref sig .tc := ⟨.hbm, 36, rfl⟩
abbrev main_c_5 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_c_6 : Ref sig .tc := ⟨.hbm, 45, rfl⟩
abbrev main_v33 : Ref sig .tc := ⟨.hbm, 46, rfl⟩
abbrev main_v34 : Ref sig .tc := ⟨.hbm, 47, rfl⟩
abbrev main_c_7 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_cst_8 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_c_9 : Ref sig .tc := ⟨.hbm, 61, rfl⟩
abbrev main_v46 : Ref sig .tc := ⟨.hbm, 62, rfl⟩
abbrev main_v47 : Ref sig .tc := ⟨.hbm, 63, rfl⟩
abbrev main_c_10 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_cst_11 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  concatenates_S100000x64_S100000x64_S100000x64_S100000x192_d1 : Shape.Concatenates [S100000x64, S100000x64, S100000x64] S100000x192 1
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x192_S192x64_S100000x64_1_0_0_1_n_n_wf : DotDims.WF S100000x192 S192x64 S100000x64 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x192_S192x64_S100000x64_1_0_0_1_n_n : DotDims S100000x192 S192x64 S100000x64 where
  lhsContracting := [1]
  rhsContracting := [0]
  lhsNonContracting := [0]
  rhsNonContracting := [1]
  lhsBatch := []
  rhsBatch := []
  wf := dot_S100000x192_S192x64_S100000x64_1_0_0_1_n_n_wf

class Facts : Prop extends Facts₀ where

variable [Facts]
-- ==== Proof.KernelFrame.lean ====
/-
  The frame of `Kernel`'s one pallas_call behind its host prefix.

  @main is three stretches of host operations (the degree normalisation, two rounds of gather, scale and
  scatter-add, the column-wise join of the three feature blocks and the bias reshaped to a row) followed by one
  region on a grid of ten points. At point `t` the region stages rows `10000·t … 10000·t+9999` of the joined
  feature array (window 0), the whole weight matrix (window 1) and the bias row (window 2), runs the body, and
  writes the 10000×64 block of the result back (window 3). The body loads its three inputs whole, stores one
  value over the whole output block, and touches nothing else; so after the body the output's staging buffer
  holds the payload `k0_pay1` of the three input blocks, and every argument array ends as launched: no host
  operation writes an argument, the weight matrix is only staged for reading, and the other three arguments
  are staged by no window.
-/
import proofs.«139808_j50783693308333_1_alg».proof.Proof.Gen.Kernel.Launch
import proofs.«139808_j50783693308333_1_alg».proof.Proof.Gen.Kernel.Skeleton
import proofs.«139808_j50783693308333_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: the launch contents after the three stretches of host
    operations. -/
abbrev V (c : Dev nD) (b : Ref sig .tc) : Buf (Elt F) ((c : Thread nD τ).loc b) :=
  StableHlo.after (List.flatten [hostOps0, hostOps0_1, hostOps0_2]) (fun b => m (c, b)) b

/-- No host operation allocates a buffer. -/
theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor

/-- @main is the three host stretches and then the region, so the region is entered at `V`. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2] (by simp only [List.Forall]; exact ⟨hostOps0_sub, hostOps0_1_sub, hostOps0_2_sub⟩)
    (by simp only [List.Forall]; exact ⟨hostOps0_fresh, hostOps0_1_fresh, hostOps0_2_fresh⟩) main_chain

/-- A buffer no host operation writes is found by the region as launched. -/
theorem V_unwritten (c : Dev nD) (b : Ref sig .tc)
    (hb : (List.flatten [(hostOps0 : List (HloOp τ sig (Elt F))), hostOps0_1, hostOps0_2]).Forall
      fun op => Proc.devRef .tc b ∉ op.writes) :
    V m c b = m ((c : Thread nD τ).loc b) :=
  StableHlo.after_of_forall_not_mem (b := Proc.devRef .tc b) _ _ (List.forall_iff_forall_mem.mp hb)

/-- The four arguments are written by no host operation. -/
theorem V_main_arg0 (c : Dev nD) : V m c main_arg0 = m ((c : Thread nD τ).loc main_arg0) :=
  V_unwritten m c main_arg0 (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide))
theorem V_main_arg1 (c : Dev nD) : V m c main_arg1 = m ((c : Thread nD τ).loc main_arg1) :=
  V_unwritten m c main_arg1 (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide))
theorem V_main_arg2 (c : Dev nD) : V m c main_arg2 = m ((c : Thread nD τ).loc main_arg2) :=
  V_unwritten m c main_arg2 (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide))
theorem V_main_arg3 (c : Dev nD) : V m c main_arg3 = m ((c : Thread nD τ).loc main_arg3) :=
  V_unwritten m c main_arg3 (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, whether the point fetches it or
    its block index has not moved since the fetch. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The argument arrays after the run -/

/-- From a run to the pipeline's frame post, the four arguments end as launched: the weight matrix is window
    1's array, read only; the other three are arrays of no window. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).1 1).trans (((dats 0 c).arrAt_in 1 rfl _).trans ((hA c 1).trans (V_main_arg2 m c))),
      ((h c).2 main_arg3 (Pipeline.mem_restRefs_of main_arg3 (by decide) (by decide))).trans (V_main_arg3 m c)⟩) h

/-! ## The body -/

/-- The whole feature block, the whole weight matrix, the whole bias row and the whole output block. -/
abbrev rFeat : Rect S10000x192 := Rect.unit (s := S10000x192) ![0, 0] S10000x192.size Gen.inb_S10000x192_S10000x192_0_0
abbrev rW : Rect S192x64 := Rect.unit (s := S192x64) ![0, 0] S192x64.size Gen.inb_S192x64_S192x64_0_0
abbrev rB : Rect S1x64 := Rect.unit (s := S1x64) ![0, 0] S1x64.size Gen.inb_S1x64_S1x64_0_0
abbrev rOut : Rect S10000x64 := Rect.unit (s := S10000x64) ![0, 0] S10000x64.size Gen.inb_S10000x64_S10000x64_0_0

/-- What the body leaves in the output's staging buffer, from the three input blocks: its one store. -/
def outBlk (x0 : Vec F S10000x192 .f32) (x1 : Vec F S192x64 .f32) (x2 : Vec F S1x64 .f32) : Vec F S10000x64 .f32 :=
  View.canon [⟨rOut, k0_pay1 (View.ld x0 rFeat) (View.ld x1 rW) (View.ld x2 rB)⟩]

/-- The one store covers the buffer. -/
theorem coverOut (p0 : Vec F S10000x64 .f32) (y : S10000x64.Idx) :
    ∃ pc ∈ ([⟨rOut, p0⟩] : List (View.Piece (Elt F) S10000x64 .f32)), y ∈ pc.1.set :=
  View.cover_of_tiled [⟨rOut, p0⟩] S10000x64.size (by rfl) y

set_option maxHeartbeats 1000000 in
/-- The body on whole staging memrefs, the inputs' at contents `x0 x1 x2` and the output's at anything, runs to
    the continuation with the inputs as they were and the output at `outBlk x0 x1 x2`. -/
theorem sound_kernel (c : Dev nD) (E : Set ℕ) (i : grid0.Coords) (arg1 : Memref sig .tc .vmem S10000x192 .f32) (harg1 : arg1.IsWhole) (arg2 : Memref sig .tc .vmem S192x64 .f32) (harg2 : arg2.IsWhole) (arg3 : Memref sig .tc .vmem S1x64 .f32) (harg3 : arg3.IsWhole) (arg4 : Memref sig .tc .vmem S10000x64 .f32) (harg4 : arg4.IsWhole)
    (x0 : Vec F S10000x192 .f32) (x1 : Vec F S192x64 .f32) (x2 : Vec F S1x64 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (outBlk x0 x1 x2)) -∗ K ⟨⟩))
      ⊢ wp frame (wpE (defs₀ (F := F)) Variants.none c none) E (cc0__linear_kernel i arg1 harg1 arg2 harg2 arg3 harg3 arg4 harg4) K := by
  simp only [cc0__linear_kernel_eq_skeleton]; unfold cc0__linear_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (coverOut _)

/-! ## The pipeline's proof data -/

/-- On core `c`: the arrays as the region finds them; after the body at point `t` each input's buffer at its
    block and the output's at `outBlk` of the three input blocks; the invariant is the scoped rest and the
    generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outBlk (iblk m c 0 t) (iblk m c 1 t) (iblk m c 2 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = outBlk (iblk m c 0 t) (iblk m c 1 t) (iblk m c 2 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The body at any point: the inputs' memrefs hold their blocks, so `sound_kernel` applies; the invariant and
    the core's debts pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel c Set.univ (grid0.coords t) _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, and every final state has every array of the pipeline at
    what the proof data say and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame claim, at any `F`. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.Kernel.Hand

end
-- ==== Proof.KernelIdealFrame.lean ====
/-
  The frame of `KernelIdeal`'s one pallas_call behind its host prefix.

  @main is three stretches of host operations (the degree normalisation, two rounds of gather, scale and
  scatter-add, the column-wise join of the three feature blocks and the bias reshaped to a row) followed by one
  region on a grid of ten points. At point `t` the region stages rows `10000·t … 10000·t+9999` of the joined
  feature array (window 0), the whole weight matrix (window 1) and the bias row (window 2), runs the body, and
  writes the 10000×64 block of the result back (window 3). The body loads its three inputs whole, stores one
  value over the whole output block, and touches nothing else; so after the body the output's staging buffer
  holds the payload `k0_pay1` of the three input blocks, and every argument array ends as launched: no host
  operation writes an argument, the weight matrix is only staged for reading, and the other three arguments
  are staged by no window.
-/
import proofs.«139808_j50783693308333_1_alg».proof.Proof.Gen.KernelIdeal.Launch
import proofs.«139808_j50783693308333_1_alg».proof.Proof.Gen.KernelIdeal.Skeleton
import proofs.«139808_j50783693308333_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: the launch contents after the three stretches of host
    operations. -/
abbrev V (c : Dev nD) (b : Ref sig .tc) : Buf (Elt F) ((c : Thread nD τ).loc b) :=
  StableHlo.after (List.flatten [hostOps0, hostOps0_1, hostOps0_2]) (fun b => m (c, b)) b

/-- No host operation allocates a buffer. -/
theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor

/-- @main is the three host stretches and then the region, so the region is entered at `V`. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2] (by simp only [List.Forall]; exact ⟨hostOps0_sub, hostOps0_1_sub, hostOps0_2_sub⟩)
    (by simp only [List.Forall]; exact ⟨hostOps0_fresh, hostOps0_1_fresh, hostOps0_2_fresh⟩) main_chain

/-- A buffer no host operation writes is found by the region as launched. -/
theorem V_unwritten (c : Dev nD) (b : Ref sig .tc)
    (hb : (List.flatten [(hostOps0 : List (HloOp τ sig (Elt F))), hostOps0_1, hostOps0_2]).Forall
      fun op => Proc.devRef .tc b ∉ op.writes) :
    V m c b = m ((c : Thread nD τ).loc b) :=
  StableHlo.after_of_forall_not_mem (b := Proc.devRef .tc b) _ _ (List.forall_iff_forall_mem.mp hb)

/-- The four arguments are written by no host operation. -/
theorem V_main_arg0 (c : Dev nD) : V m c main_arg0 = m ((c : Thread nD τ).loc main_arg0) :=
  V_unwritten m c main_arg0 (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide))
theorem V_main_arg1 (c : Dev nD) : V m c main_arg1 = m ((c : Thread nD τ).loc main_arg1) :=
  V_unwritten m c main_arg1 (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide))
theorem V_main_arg2 (c : Dev nD) : V m c main_arg2 = m ((c : Thread nD τ).loc main_arg2) :=
  V_unwritten m c main_arg2 (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide))
theorem V_main_arg3 (c : Dev nD) : V m c main_arg3 = m ((c : Thread nD τ).loc main_arg3) :=
  V_unwritten m c main_arg3 (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, whether the point fetches it or
    its block index has not moved since the fetch. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The argument arrays after the run -/

/-- From a run to the pipeline's frame post, the four arguments end as launched: the weight matrix is window
    1's array, read only; the other three are arrays of no window. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).1 1).trans (((dats 0 c).arrAt_in 1 rfl _).trans ((hA c 1).trans (V_main_arg2 m c))),
      ((h c).2 main_arg3 (Pipeline.mem_restRefs_of main_arg3 (by decide) (by decide))).trans (V_main_arg3 m c)⟩) h

/-! ## The body -/

/-- The whole feature block, the whole weight matrix, the whole bias row and the whole output block. -/
abbrev rFeat : Rect S10000x192 := Rect.unit (s := S10000x192) ![0, 0] S10000x192.size Gen.inb_S10000x192_S10000x192_0_0
abbrev rW : Rect S192x64 := Rect.unit (s := S192x64) ![0, 0] S192x64.size Gen.inb_S192x64_S192x64_0_0
abbrev rB : Rect S1x64 := Rect.unit (s := S1x64) ![0, 0] S1x64.size Gen.inb_S1x64_S1x64_0_0
abbrev rOut : Rect S10000x64 := Rect.unit (s := S10000x64) ![0, 0] S10000x64.size Gen.inb_S10000x64_S10000x64_0_0

/-- What the body leaves in the output's staging buffer, from the three input blocks: its one store. -/
def outBlk (x0 : Vec F S10000x192 .f32) (x1 : Vec F S192x64 .f32) (x2 : Vec F S1x64 .f32) : Vec F S10000x64 .f32 :=
  View.canon [⟨rOut, k0_pay1 (View.ld x0 rFeat) (View.ld x1 rW) (View.ld x2 rB)⟩]

/-- The one store covers the buffer. -/
theorem coverOut (p0 : Vec F S10000x64 .f32) (y : S10000x64.Idx) :
    ∃ pc ∈ ([⟨rOut, p0⟩] : List (View.Piece (Elt F) S10000x64 .f32)), y ∈ pc.1.set :=
  View.cover_of_tiled [⟨rOut, p0⟩] S10000x64.size (by rfl) y

set_option maxHeartbeats 1000000 in
/-- The body on whole staging memrefs, the inputs' at contents `x0 x1 x2` and the output's at anything, runs to
    the continuation with the inputs as they were and the output at `outBlk x0 x1 x2`. -/
theorem sound_kernel (c : Dev nD) (E : Set ℕ) (i : grid0.Coords) (arg1 : Memref sig .tc .vmem S10000x192 .f32) (harg1 : arg1.IsWhole) (arg2 : Memref sig .tc .vmem S192x64 .f32) (harg2 : arg2.IsWhole) (arg3 : Memref sig .tc .vmem S1x64 .f32) (harg3 : arg3.IsWhole) (arg4 : Memref sig .tc .vmem S10000x64 .f32) (harg4 : arg4.IsWhole)
    (x0 : Vec F S10000x192 .f32) (x1 : Vec F S192x64 .f32) (x2 : Vec F S1x64 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (outBlk x0 x1 x2)) -∗ K ⟨⟩))
      ⊢ wp frame (wpE (defs₀ (F := F)) Variants.none c none) E (cc0__linear_kernel i arg1 harg1 arg2 harg2 arg3 harg3 arg4 harg4) K := by
  simp only [cc0__linear_kernel_eq_skeleton]; unfold cc0__linear_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (coverOut _)

/-! ## The pipeline's proof data -/

/-- On core `c`: the arrays as the region finds them; after the body at point `t` each input's buffer at its
    block and the output's at `outBlk` of the three input blocks; the invariant is the scoped rest and the
    generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outBlk (iblk m c 0 t) (iblk m c 1 t) (iblk m c 2 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = outBlk (iblk m c 0 t) (iblk m c 1 t) (iblk m c 2 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The body at any point: the inputs' memrefs hold their blocks, so `sound_kernel` applies; the invariant and
    the core's debts pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel c Set.univ (grid0.coords t) _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, and every final state has every array of the pipeline at
    what the proof data say and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame claim, at any `F`. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.KernelIdeal.Hand

end
-- ==== Proof.LibPlainDot.lean ====
/-
  General lemmas for reading a kernel's vector operations at an index, at the ideal instance.

  * `matmul_plain_apply`: a matrix product of an [M, K] operand with a [K, N] operand into a zero accumulator, read at
    (p, j), is the sum over k of lhs (p, k) · rhs (k, j), for any record of dimension numbers whose four axis facts are
    given (row of the output from the left operand's axis 0, column from the right operand's axis 1, the one contracted
    index on the left's axis 1 and the right's axis 0).
  * `shapeCast_a_a1_apply`: an [a] vector recast as an [a, 1] column reads, at (p, u), the vector at p.
  * `broadcastTo_a1_ab_apply`: an [a, 1] column broadcast to [a, b] reads, at (p, c), the column at (p, 0).
-/
import Idealize.ShloMosaic.PureOps.Ideal.Laws
import Idealize.ShloMosaic.Lib.ValueIdx
import Idealize.ShloMosaic.Lib.ValueLayout
import Idealize.ShloMosaic.Lib.Pipeline.Value

noncomputable section

namespace Cert.Lib

open Idealize.ShloMosaic Idealize.ShloMosaic.ValueIdx

/-- A plain two-operand matrix product into the zero accumulator, read at (p, j): ∑ₖ lhs (p, k) · rhs (k, j). -/
theorem matmul_plain_apply {M K N : Nat} {φ₁ φ₂ : FTy} (d : DotDims ⟨2, ![M, K]⟩ ⟨2, ![K, N]⟩ ⟨2, ![M, N]⟩)
    (hr : d.contr.rank = 1) (hs : d.contr.size ⟨0, by omega⟩ = K)
    (hl0 : ∀ i q, (d.lhsIdx i q 0).val = (i 0).val) (hl1 : ∀ i q, (d.lhsIdx i q 1).val = (q ⟨0, by omega⟩).val)
    (hr0 : ∀ i q, (d.rhsIdx i q 0).val = (q ⟨0, by omega⟩).val) (hr1 : ∀ i q, (d.rhsIdx i q 1).val = (i 1).val)
    (prec : Option ContractPrecision) (lhs : FVec Ideal ⟨2, ![M, K]⟩ φ₁) (rhs : FVec Ideal ⟨2, ![K, N]⟩ φ₂)
    (p : Fin M) (j : Fin N) :
    FloatOps.matmul d prec lhs rhs (constant ⟨2, ![M, N]⟩ .f32 0x00000000#32) (ix2 p j)
      = ∑ k : Fin K, lhs (ix2 p k) * rhs (ix2 k j) := by
  rw [Ideal.matmul_constant_zero_apply, ← Equiv.sum_comp (contrEquiv1 d K hr hs).symm]
  refine Finset.sum_congr rfl fun k _ => ?_
  have hk := contrEquiv1_symm_val d K hr hs k
  have el : d.lhsIdx (ix2 p j) ((contrEquiv1 d K hr hs).symm k) = ix2 p k := funext fun a => Fin.ext (by
    match a with
    | ⟨0, _⟩ => exact hl0 _ _
    | ⟨1, _⟩ => exact (hl1 _ _).trans hk)
  have er : d.rhsIdx (ix2 p j) ((contrEquiv1 d K hr hs).symm k) = ix2 k j := funext fun a => Fin.ext (by
    match a with
    | ⟨0, _⟩ => exact (hr0 _ _).trans hk
    | ⟨1, _⟩ => exact hr1 _ _)
  rw [el, er]

variable {α : Type}

/-- An `[a]` vector recast as an `[a, 1]` column reads, at `(p, u)`, the vector at `p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `[a, 1]` column broadcast to `[a, b]` reads, at `(p, c)`, the column at `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib

end
-- ==== Proof.KernelIdealBody.lean ====
/-
  The kernel body's one stored value, read at an index, at the ideal instance.

  The body casts its feature block and the weight matrix to bf16 (the identity on extended reals), multiplies them
  into a zero accumulator, and adds the bias row broadcast down the 10000 rows. So at row `p` and column `j` of
  the block the stored value is `(∑ k < 192, x (p, k) · w (k, j)) + brow (0, j)`.
-/
import proofs.«139808_j50783693308333_1_alg».proof.Proof.Gen.KernelIdeal.Skeleton
import proofs.«139808_j50783693308333_1_alg».proof.Proof.LibPlainDot
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Body

open Cert.KernelIdeal Cert.KernelIdeal.Gen Idealize.ShloMosaic Idealize.ShloMosaic.ValueIdx

/-- The product's dimension numbers: output rows come from the left operand's axis 0, output columns from the
    right operand's axis 1, and the one contracted index runs over the left's axis 1 and the right's axis 0. -/
theorem lhs_axis0 (i : S10000x64.Idx) (q : dot_S10000x192_S192x64_S10000x64_1_0_0_1_n_n.contr.Idx) :
    (dot_S10000x192_S192x64_S10000x64_1_0_0_1_n_n.lhsIdx i q 0).val = (i 0).val := by
  unfold DotDims.lhsIdx
  rw [dif_neg (show ¬(0 : Fin S10000x192.rank) ∈ dot_S10000x192_S192x64_S10000x64_1_0_0_1_n_n.lhsBatch by decide), dif_pos (show (0 : Fin S10000x192.rank) ∈ dot_S10000x192_S192x64_S10000x64_1_0_0_1_n_n.lhsNonContracting by decide)]
  rfl
theorem lhs_axis1 (i : S10000x64.Idx) (q : dot_S10000x192_S192x64_S10000x64_1_0_0_1_n_n.contr.Idx) :
    (dot_S10000x192_S192x64_S10000x64_1_0_0_1_n_n.lhsIdx i q 1).val = (q ⟨0, by decide⟩).val :=
  dot_S10000x192_S192x64_S10000x64_1_0_0_1_n_n.lhsIdx_val_of_single rfl i q
theorem rhs_axis0 (i : S10000x64.Idx) (q : dot_S10000x192_S192x64_S10000x64_1_0_0_1_n_n.contr.Idx) :
    (dot_S10000x192_S192x64_S10000x64_1_0_0_1_n_n.rhsIdx i q 0).val = (q ⟨0, by decide⟩).val :=
  dot_S10000x192_S192x64_S10000x64_1_0_0_1_n_n.rhsIdx_val_of_single rfl i q
theorem rhs_axis1 (i : S10000x64.Idx) (q : dot_S10000x192_S192x64_S10000x64_1_0_0_1_n_n.contr.Idx) :
    (dot_S10000x192_S192x64_S10000x64_1_0_0_1_n_n.rhsIdx i q 1).val = (i 1).val := by
  unfold DotDims.rhsIdx
  rw [dif_neg (show ¬(1 : Fin S192x64.rank) ∈ dot_S10000x192_S192x64_S10000x64_1_0_0_1_n_n.rhsBatch by decide), dif_pos (show (1 : Fin S192x64.rank) ∈ dot_S10000x192_S192x64_S10000x64_1_0_0_1_n_n.rhsNonContracting by decide)]
  rfl

/-- The product of a [10000, 192] block with the [192, 64] matrix into the zero accumulator, at `(p, j)`. -/
theorem matmul_block_apply (l : FVec Ideal S10000x192 .bf16) (r : FVec Ideal S192x64 .bf16) (p : Fin 10000) (j : Fin 64) :
    matmul dot_S10000x192_S192x64_S10000x64_1_0_0_1_n_n none l r (constant S10000x64 .f32 0x00000000#32) (ix2 p j)
      = ∑ k : Fin 192, l (ix2 p k) * r (ix2 k j) :=
  Cert.Lib.matmul_plain_apply dot_S10000x192_S192x64_S10000x64_1_0_0_1_n_n rfl rfl lhs_axis0 lhs_axis1 rhs_axis0 rhs_axis1 none l r p j

/-- A [1, 64] row broadcast down 10000 rows reads, at `(p, j)`, the row at `(0, j)`. -/
theorem bias_rows_apply (v : FVec Ideal S1x64 .f32) (p : Fin 10000) (j : Fin 64) :
    broadcastTo S10000x64 v broadcasts_S1x64_S10000x64 (ix2 p j) = v (ix2 (0 : Fin 1) j) := by
  refine broadcastTo_apply v broadcasts_S1x64_S10000x64 (ix2 p j) (ix2 (0 : Fin 1) j) fun ax => ?_
  match ax with
  | ⟨0, _⟩ => rfl
  | ⟨1, _⟩ => rfl

/-- The stored value at `(p, j)`: the row of the feature block times the column of the weights, plus the bias. -/
theorem pay_apply (x0 : Vec Ideal S10000x192 .f32) (x1 : Vec Ideal S192x64 .f32) (x2 : Vec Ideal S1x64 .f32)
    (p : Fin 10000) (j : Fin 64) :
    k0_pay1 (F := Ideal) x0 x1 x2 (ix2 p j) = (∑ k : Fin 192, x0 (ix2 p k) * x1 (ix2 k j)) + x2 (ix2 (0 : Fin 1) j) := by
  unfold k0_pay1
  show (matmul dot_S10000x192_S192x64_S10000x64_1_0_0_1_n_n none _ _ (constant S10000x64 .f32 0x00000000#32) (ix2 p j)) + (broadcastTo S10000x64 _ broadcasts_S1x64_S10000x64 (ix2 p j)) = _
  rw [matmul_block_apply, bias_rows_apply, shapeCast_self, shapeCast_self]
  rfl

end Cert.KernelIdeal.Body

end
-- ==== Proof.LibNary3.lean ====
/-
  A host operation over a literal family of THREE references (a three-operand concatenate), read at its
  result buffer.

  The general n-ary result lemma leaves the operands under a binder, `fun k => F (![x, a, b] k)`, where the
  reference `![x, a, b] k` is no literal, so no later rewrite of an operand's own contents applies to it. Here
  the same result is stated with each operand's contents at its own reference, `Fin.cons (F x) (Fin.cons (F a)
  (Fin.cons (F b) _))`: the two families agree at the three indices `0`, `1`, `2`.
-/
import Idealize.ShloMosaic.Lib.StableHlo.Run

namespace Idealize.ShloMosaic.StableHlo

variable {τ : Topo} {sig : RefSig} {Val : EltTy → Type}
variable {x a b y : Ref sig .tc}

/-- The result of an operation over the three literal references `x`, `a`, `b`, at its own result buffer:
    its function applied to the three operands' contents, each read at its own reference. -/
theorem nary3_result
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

/-- The same, with the result reference left out of the rewriting index, as the library states its own result
    lemmas for a one-pass normalisation. -/
theorem nary3_result'
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = f (Fin.cons (F (Proc.devRef .tc x)) (Fin.cons (F (Proc.devRef .tc a)) (Fin.cons (F (Proc.devRef .tc b)) (fun i => i.elim0)))) :=
  nary3_result f hxs hy F

end Idealize.ShloMosaic.StableHlo
-- ==== Proof.LibConcat3.lean ====
/-
  A concatenation of three arrays of one shape depends only on the three arrays.

  The operands of a printed concatenation sit in a list of (shape, array) pairs, where a rewriting pass does not
  reach them; this congruence exposes them, so that each operand can be brought to its own normal form.
-/
import Idealize.ShloMosaic.PureOps

namespace Idealize.ShloMosaic

/-- Equal operands give equal concatenations. -/
theorem concatenate3_congr {α : Type} (S T : Shape) (d : Fin S.rank) (A A' B B' C C' : T.Idx → α)
    (h : Shape.Concatenates [T, T, T] S d) (hA : A = A') (hB : B = B') (hC : C = C') :
    concatenate S d [⟨T, A⟩, ⟨T, B⟩, ⟨T, C⟩] h = concatenate S d [⟨T, A'⟩, ⟨T, B'⟩, ⟨T, C'⟩] h := by
  subst hA hB hC; rfl

end Idealize.ShloMosaic
-- ==== Proof.KernelIdealEntry.lean ====
/-
  What the region finds in the arrays its windows stage, as functions of the arguments.

  Window 0 stages the joined feature array: the argument `x`, one round of normalised propagation of `x` along the
  edges, and a second round, side by side. The host operations that compute it are, one for one, those of the
  reference, so each of the three joined arrays is the reference's own stage for that value, applied to the same two
  arguments; the chains are never opened. Window 2 stages the bias recast as a [1, 64] row.
-/
import proofs.«139808_j50783693308333_1_alg».proof.Proof.KernelIdealFrame
import proofs.«139808_j50783693308333_1_alg».proof.Proof.RefRead
import proofs.«139808_j50783693308333_1_alg».proof.Proof.LibNary3
import proofs.«139808_j50783693308333_1_alg».proof.Proof.LibConcat3

set_option maxRecDepth 16384

noncomputable section

namespace Cert.KernelIdeal.Entry

open Cert.KernelIdeal Cert.KernelIdeal.Gen Cert.KernelIdeal.Hand
open Idealize.ShloMosaic Idealize.ShloMosaic.TcCoe Idealize.SL.Sem Idealize.ShloMosaic.StableHlo

variable {F : FTy → Type} [FloatOps F]
variable (m : (ℓ : Loc nD τ sig) → Buf (Elt F) ℓ)

/-- The join of the three feature arrays, read at its result buffer: the concatenation of the three operands'
    contents, each read at its own reference. -/
theorem join_result (Fv : Valuation τ sig (Elt F)) (hxs hy) :
    (nary (τ := τ) ![main_arg0, main_v44, main_v57] main_v58 (fun u => concatenate S100000x192 1 [⟨S100000x64, u 0⟩, ⟨S100000x64, u 1⟩, ⟨S100000x64, u 2⟩] concatenates_S100000x64_S100000x64_S100000x64_S100000x192_d1) hxs hy).result Fv (no_index (Proc.devRef .tc main_v58))
      = concatenate S100000x192 1 [⟨S100000x64, Fv (Proc.devRef .tc main_arg0)⟩, ⟨S100000x64, Fv (Proc.devRef .tc main_v44)⟩, ⟨S100000x64, Fv (Proc.devRef .tc main_v57)⟩] concatenates_S100000x64_S100000x64_S100000x64_S100000x192_d1 :=
  nary3_result _ hxs hy Fv

set_option maxHeartbeats 4000000 in
/-- The joined feature array at region entry is the reference's stage for it, of the arguments `x` and `edge_index`:
    the join is read first, then each of its three operands is brought to the reference's stage for it. -/
theorem V_feats (c : Dev nD) :
    V m c main_v58 = Cert.ReferenceIdeal.ReadP.val_main_v58 (F := F) (m ((c : Thread nD τ).loc main_arg0)) (m ((c : Thread nD τ).loc main_arg1)) := by
  dsimp only [V]
  simp only [hostOps0, hostOps0_1, hostOps0_2, List.flatten_cons, List.flatten_nil, List.append_nil, List.cons_append, List.nil_append]
  simp (disch := decide) only [after_cons, after_nil, reshape_result_ne', join_result]
  unfold Cert.ReferenceIdeal.ReadP.val_main_v58
  refine concatenate3_congr _ _ _ _ _ _ _ _ _ _ ?_ ?_ ?_
  · after_results_simp
  · after_results_simp
    try simp only [TRef.ofBuf, TRef.toBuf, cast_eq]
    rfl
  · after_results_simp
    try simp only [TRef.ofBuf, TRef.toBuf, cast_eq]
    rfl

set_option maxHeartbeats 4000000 in
/-- The bias row at region entry is the bias argument recast from [64] to [1, 64]. -/
theorem V_biasRow (c : Dev nD) :
    V m c main_v59 = shapeCast S1x64 (m ((c : Thread nD τ).loc main_arg3)) shapeCasts_S64_S1x64 := by
  dsimp only [V]
  simp only [hostOps0, hostOps0_1, hostOps0_2, List.flatten_cons, List.flatten_nil, List.append_nil, List.cons_append, List.nil_append]
  after_results_simp
  rfl

end Cert.KernelIdeal.Entry

end
-- ==== Proof.LinearSpec.lean ====
/-
  What both programs compute after their shared host prefix: a dense layer over the joined feature array.

  With `feats` the [100000, 192] array of joined features, `W` the [192, 64] weight matrix and `b` the bias of 64
  entries, the result at row `r` and column `j` is

      (∑ k < 192, feats (r, k) · W (k, j)) + b j

  on the extended reals. No law of arithmetic is needed to join the two sides: the kernel computes exactly this
  sum per block of 10000 rows (its accumulator starts at zero, and `0 + s = s` at the infinities too), and the
  reference computes it for all rows at once.
-/
import Idealize.ShloMosaic.PureOps.Ideal
import Idealize.ShloMosaic.Lib.ValueIdx

noncomputable section

namespace Cert.LinearSpec

open Idealize.ShloMosaic

/-- Entry `(r, k)` of the feature array, for the result index `i = (r, j)`. -/
abbrev featIdx (i : (⟨2, ![100000, 64]⟩ : Shape).Idx) (k : Fin 192) : (⟨2, ![100000, 192]⟩ : Shape).Idx := fun a => match a with
  | ⟨0, _⟩ => ⟨(i 0).val, (i 0).isLt⟩
  | ⟨1, _⟩ => ⟨k.val, k.isLt⟩

/-- Entry `(k, j)` of the weight matrix, for the result index `i = (r, j)`. -/
abbrev wIdx (i : (⟨2, ![100000, 64]⟩ : Shape).Idx) (k : Fin 192) : (⟨2, ![192, 64]⟩ : Shape).Idx := fun a => match a with
  | ⟨0, _⟩ => ⟨k.val, k.isLt⟩
  | ⟨1, _⟩ => ⟨(i 1).val, (i 1).isLt⟩

/-- Entry `j` of the bias, for the result index `i = (r, j)`. -/
abbrev bIdx (i : (⟨2, ![100000, 64]⟩ : Shape).Idx) : (⟨1, ![64]⟩ : Shape).Idx := fun a => match a with
  | ⟨0, _⟩ => ⟨(i 1).val, (i 1).isLt⟩

/-- The dense layer: `feats · W + b`, index by index. -/
def linear (feats : (⟨2, ![100000, 192]⟩ : Shape).Idx → EReal) (W : (⟨2, ![192, 64]⟩ : Shape).Idx → EReal)
    (b : (⟨1, ![64]⟩ : Shape).Idx → EReal) : (⟨2, ![100000, 64]⟩ : Shape).Idx → EReal :=
  fun i => (∑ k : Fin 192, feats (featIdx i k) * W (wIdx i k)) + b (bIdx i)

theorem linear_apply (feats : (⟨2, ![100000, 192]⟩ : Shape).Idx → EReal) (W : (⟨2, ![192, 64]⟩ : Shape).Idx → EReal)
    (b : (⟨1, ![64]⟩ : Shape).Idx → EReal) (i : (⟨2, ![100000, 64]⟩ : Shape).Idx) :
    linear feats W b i = (∑ k : Fin 192, feats (featIdx i k) * W (wIdx i k)) + b (bIdx i) := rfl

end Cert.LinearSpec

end
-- ==== Proof.KernelIdealValue.lean ====
/-
  The kernel's result array after the run, at the ideal instance: the dense layer of the arrays its windows stage.

  Point `t` of the grid writes back block `t` of the result: rows `10000·t … 10000·t + 9999`, all 64 columns. Row `p`
  of the feature block at point `t` is row `10000·t + p` of the feature array; the weight matrix and the bias row are
  staged whole at every point. So what point `t` writes back is block `t` of ONE whole-array function, the dense
  layer `LinearSpec.linear`; the ten blocks tile the 100000 rows (row `r` lies in block `r / 10000`), so the array
  ends holding that function.
-/
import proofs.«139808_j50783693308333_1_alg».proof.Proof.KernelIdealFrame
import proofs.«139808_j50783693308333_1_alg».proof.Proof.KernelIdealBody
import proofs.«139808_j50783693308333_1_alg».proof.Proof.KernelIdealEntry
import proofs.«139808_j50783693308333_1_alg».proof.Proof.LinearSpec
import Idealize.ShloMosaic.Lib.Pipeline.Value

set_option maxRecDepth 16384

noncomputable section

namespace Cert.KernelIdeal.HandValue

open Cert.KernelIdeal Cert.KernelIdeal.Gen Cert.KernelIdeal.Hand Cert.LinearSpec
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The printed index maps, decided over the ten points: the feature window and the result window are at block
    `(t, 0)`, the weight and bias windows stay at block `(0, 0)`. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-! ## One block's value from the blocks' entries -/

/-- If row `y 0` of the feature block is row `i 0` of the feature array, column `y 1` of the weight block is column
    `i 1` of the weights, and entry `(0, y 1)` of the bias block is entry `i 1` of the bias, then the body's stored
    value at `y` is the dense layer at `i`. -/
theorem blk_value (x0 : Vec Ideal S10000x192 .f32) (x1 : Vec Ideal S192x64 .f32) (x2 : Vec Ideal S1x64 .f32)
    (feats : S100000x192.Idx → EReal) (W : S192x64.Idx → EReal) (b : S64.Idx → EReal)
    (y : S10000x64.Idx) (i : S100000x64.Idx)
    (h0 : ∀ k : Fin 192, x0 (ix2 (y 0) k) = feats (featIdx i k))
    (h1 : ∀ k : Fin 192, x1 (ix2 k (y 1)) = W (wIdx i k))
    (h2 : x2 (ix2 (0 : Fin 1) (y 1)) = b (bIdx i)) :
    k0_pay1 (F := Ideal) x0 x1 x2 y = linear feats W b i := by
  obtain ⟨p, j, rfl⟩ : ∃ (p : Fin 10000) (j : Fin 64), y = ix2 p j := ⟨y 0, y 1, eq_ix2 y⟩
  rw [Cert.KernelIdeal.Body.pay_apply, linear_apply]
  have hs : (∑ k : Fin 192, x0 (ix2 p k) * x1 (ix2 k j)) = ∑ k : Fin 192, feats (featIdx i k) * W (wIdx i k) :=
    Finset.sum_congr rfl fun k _ => congr (congrArg HMul.hMul (h0 k)) (h1 k)
  exact congr (congrArg HAdd.hAdd hs) h2

/-! ## The blocks' entries -/

/-- Row `p` of the feature block at point `t` is row `10000·t + p` of the feature array. -/
theorem feat_blk_apply (c : Dev nD) (t : Fin cfg0.N) (y : S10000x64.Idx) (i : S100000x64.Idx)
    (hi0 : (i 0).val = 10000 * t.val + (y 0).val) (k : Fin 192) :
    (iblk m c 0 t : Vec Ideal S10000x192 .f32) (ix2 (y 0) k) = (V m c main_v58 : S100000x192.Idx → EReal) (featIdx i k) := by
  obtain ⟨e0, e1, -⟩ := idx_facts t
  unfold iblk
  rw [View.read_apply]
  show V m c main_v58 _ = V m c main_v58 _
  congr 1
  funext a
  apply Fin.ext
  match a with
  | ⟨0, _⟩ => show win0_0.index t (0 : Fin 2) * 10000 + 1 * (y 0).val = (i 0).val; rw [e0, hi0]; omega
  | ⟨1, _⟩ => show win0_0.index t (1 : Fin 2) * 192 + 1 * k.val = k.val; rw [e1]; omega

/-- The weight block at every point is the weight matrix. -/
theorem w_blk_apply (c : Dev nD) (t : Fin cfg0.N) (y : S10000x64.Idx) (i : S100000x64.Idx)
    (hi1 : (i 1).val = (y 1).val) (k : Fin 192) :
    (iblk m c 1 t : Vec Ideal S192x64 .f32) (ix2 k (y 1)) = (m ((c : Thread nD τ).loc main_arg2) : S192x64.Idx → EReal) (wIdx i k) := by
  obtain ⟨-, -, e0, e1, -⟩ := idx_facts t
  unfold iblk
  rw [View.read_apply]
  show V m c main_arg2 _ = m ((c : Thread nD τ).loc main_arg2) _
  rw [V_main_arg2]
  congr 1
  funext a
  apply Fin.ext
  match a with
  | ⟨0, _⟩ => show win0_1.index t (0 : Fin 2) * 192 + 1 * k.val = k.val; rw [e0]; omega
  | ⟨1, _⟩ => show win0_1.index t (1 : Fin 2) * 64 + 1 * (y 1).val = (i 1).val; rw [e1, hi1]; omega

/-- The bias recast as a [1, 64] row reads, at `(u, j)`, the bias at `j`. -/
theorem biasRow_apply (b : S64.Idx → EReal) (i' : S1x64.Idx) (i : S100000x64.Idx) (h : (i' 1).val = (i 1).val) :
    shapeCast S1x64 b shapeCasts_S64_S1x64 i' = b (bIdx i) :=
  shapeCast_apply b shapeCasts_S64_S1x64 _ _ (by
    have hu : (i' 0).val < 1 := (i' 0).isLt
    rw [Shape.rowMajor_val_two, Shape.rowMajor_val_one]
    show (i 1).val = (i' 0).val * 64 + (i' 1).val
    omega)

/-- The bias block at every point is the bias row. -/
theorem b_blk_apply (c : Dev nD) (t : Fin cfg0.N) (y : S10000x64.Idx) (i : S100000x64.Idx)
    (hi1 : (i 1).val = (y 1).val) :
    (iblk m c 2 t : Vec Ideal S1x64 .f32) (ix2 (0 : Fin 1) (y 1)) = (m ((c : Thread nD τ).loc main_arg3) : S64.Idx → EReal) (bIdx i) := by
  obtain ⟨-, -, -, -, e0, e1, -⟩ := idx_facts t
  unfold iblk
  rw [View.read_apply]
  show V m c main_v59 _ = _
  rw [Cert.KernelIdeal.Entry.V_biasRow]
  refine biasRow_apply _ _ i ?_
  show win0_2.index t (1 : Fin 2) * 64 + 1 * (y 1).val = (i 1).val
  rw [e1, hi1]; omega

/-! ## From blocks to the array -/

/-- What point `t` writes back is block `t` of the dense layer of the staged arrays. -/
theorem flushed_eq (c : Dev nD) (t : Fin cfg0.N) :
    (dats m 0 c).flushed 3 t = ((cfg0.win 3).blk t).view.read (Elt Ideal)
      (linear (V m c main_v58) (m ((c : Thread nD τ).loc main_arg2)) (m ((c : Thread nD τ).loc main_arg3))) := by
  show (cfg0.win 3).cut (grid0.coords t) ((dats m 0 c).after 3 t) = _
  rw [after0_3]
  unfold outBlk
  rw [View.canon_unit_zero hz]
  simp only [View.ld_unit_zero (S := S10000x192) hz, View.ld_unit_zero (S := S192x64) hz, View.ld_unit_zero (S := S1x64) hz]
  obtain ⟨-, -, -, -, -, -, e0, e1⟩ := idx_facts t
  funext y
  show k0_pay1 (F := Ideal) (iblk m c 0 t) (iblk m c 1 t) (iblk m c 2 t) y = linear _ _ _ (((cfg0.win 3).blk t).view.emb y)
  have hy0 : ((((cfg0.win 3).blk t).view.emb y) 0).val = 10000 * t.val + (y 0).val := by
    show win0_3.index t (0 : Fin 2) * 10000 + 1 * (y 0).val = _; rw [e0]; omega
  have hy1 : ((((cfg0.win 3).blk t).view.emb y) 1).val = (y 1).val := by
    show win0_3.index t (1 : Fin 2) * 64 + 1 * (y 1).val = _; rw [e1]; omega
  exact blk_value _ _ _ _ _ _ y _ (feat_blk_apply m c t y _ hy0) (w_blk_apply m c t y _ hy1) (b_blk_apply m c t y _ hy1)

/-- An index of the result array is in point `t`'s block iff each coordinate is in the block's range. -/
theorem mem_blk (t : Fin cfg0.N) (i : S100000x64.Idx) :
    i ∈ ((cfg0.win 3).blk t).view.set ↔ ∀ a : Fin 2, win0_3.index t a * S10000x64.size a ≤ (i a).val ∧ (i a).val < win0_3.index t a * S10000x64.size a + S10000x64.size a := by
  show i ∈ ((View.whole main_v60).slice (win0_3.rect t)).set ↔ _
  rw [View.set_slice_whole, Rect.mem_set_unit]
  exact Iff.rfl

/-- Row `r` lies in the block of point `r / 10000`: the ten blocks tile the array. -/
theorem cover (i : S100000x64.Idx) : ∃ t : Fin cfg0.N, (cfg0.win 3).flush t = true ∧ i ∈ ((cfg0.win 3).blk t).view.set := by
  have hi0 : (i 0).val < 100000 := (i 0).isLt
  have hi1 : (i 1).val < 64 := (i 1).isLt
  have hN : cfg0.N = 10 := N_0
  let t : Fin cfg0.N := ⟨(i 0).val / 10000, by omega⟩
  have ht : t.val = (i 0).val / 10000 := rfl
  obtain ⟨-, -, -, -, -, -, e0, e1⟩ := idx_facts t
  refine ⟨t, flush0_3 t, ?_⟩
  rw [mem_blk]
  intro a
  match a with
  | ⟨0, _⟩ => show win0_3.index t (0 : Fin 2) * 10000 ≤ (i 0).val ∧ (i 0).val < win0_3.index t (0 : Fin 2) * 10000 + 10000; rw [e0, ht]; omega
  | ⟨1, _⟩ => show win0_3.index t (1 : Fin 2) * 64 ≤ (i 1).val ∧ (i 1).val < win0_3.index t (1 : Fin 2) * 64 + 64; rw [e1]; omega

/-- The result array after the run: the dense layer of the feature array, the weights and the bias. -/
theorem final_out (c : Dev nD) : (dats m 0 c).arrAt 3 cfg0.N
    = linear (Cert.ReferenceIdeal.ReadP.val_main_v58 (F := Ideal) (m ((c : Thread nD τ).loc main_arg0)) (m ((c : Thread nD τ).loc main_arg1)))
        (m ((c : Thread nD τ).loc main_arg2)) (m ((c : Thread nD τ).loc main_arg3)) := by
  rw [← Cert.KernelIdeal.Entry.V_feats m c]
  exact (dats m 0 c).arrAt_eq_of_cover 3 _ (fun t _ => flushed_eq m c t) cover

/-! ## The run, read -/

/-- Every weakly fair execution of the idealized kernel's @main terminates with the result array at the dense layer
    of the arguments and the arguments unchanged. -/
theorem run : θ_run defs (onTc (τ := τ) (main (F := Ideal))) ⟨m, fun _ => 0, ρ⟩ fun r => ∀ c : Dev nD,
      r.2.mem ((c.tc : Thread nD τ).loc main_v60)
        = linear (Cert.ReferenceIdeal.ReadP.val_main_v58 (F := Ideal) (m ((c.tc : Thread nD τ).loc main_arg0)) (m ((c.tc : Thread nD τ).loc main_arg1)))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨((h c).1 3).trans (final_out m c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).1 1).trans (((dats m 0 c).arrAt_in 1 rfl _).trans ((A_eq m c 1).trans (V_main_arg2 m c))),
      ((h c).2 main_arg3 (Pipeline.mem_restRefs_of main_arg3 (by decide) (by decide))).trans (V_main_arg3 m c)⟩)
    (run_main m ρ)

end Cert.KernelIdeal.HandValue

end
-- ==== Proof.RefIsLinear.lean ====
/-
  The reference's result is the dense layer of its own joined feature array.

  After the shared prefix the reference multiplies the [100000, 192] feature array by the weight matrix in one host
  product, lays the bias along every row and adds. Read at `(r, j)`: `(∑ k < 192, feats (r, k) · W (k, j)) + b j`.
-/
import proofs.«139808_j50783693308333_1_alg».proof.Proof.RefRead
import proofs.«139808_j50783693308333_1_alg».proof.Proof.LinearSpec

noncomputable section

namespace Cert.ReferenceIdeal.RefValue

open Cert.ReferenceIdeal Cert.ReferenceIdeal.Gen Cert.ReferenceIdeal.ReadP Cert.LinearSpec Idealize.ShloMosaic

/-- The operand indices of the reference's product and of its bias rows are those of the dense layer. -/
theorem featIdx_eq (i : S100000x64.Idx) (k : Fin 192) : lidx_main_v59 i k = featIdx i k :=
  funext fun a => Fin.ext (by match a with | ⟨0, _⟩ => rfl | ⟨1, _⟩ => rfl)
theorem wIdx_eq (i : S100000x64.Idx) (k : Fin 192) : ridx_main_v59 i k = wIdx i k :=
  funext fun a => Fin.ext (by match a with | ⟨0, _⟩ => rfl | ⟨1, _⟩ => rfl)
theorem bIdx_eq (i : S100000x64.Idx) : idx_main_v60 (idx_main_v61 i) = bIdx i :=
  funext fun a => Fin.ext (by match a with | ⟨0, _⟩ => rfl)

/-- The reference's last stage, as a function of the four arguments, is the dense layer of its feature stage. -/
theorem ref_is_linear (x0 : (⟨S100000x64, .f32⟩ : BufTy).Contents (Elt Ideal)) (x1 : (⟨S2x1600000, .i32⟩ : BufTy).Contents (Elt Ideal))
    (x2 : (⟨S192x64, .f32⟩ : BufTy).Contents (Elt Ideal)) (x3 : (⟨S64, .f32⟩ : BufTy).Contents (Elt Ideal)) :
    val_main_v62 (F := Ideal) x0 x1 x2 x3 = linear (val_main_v58 (F := Ideal) x0 x1) x2 x3 := by
  funext i
  rw [val_main_v62_apply, val_main_v59_apply, val_main_v61_apply, val_main_v60_apply, linear_apply, bIdx_eq]
  simp only [featIdx_eq, wIdx_eq]
  rfl

end Cert.ReferenceIdeal.RefValue

end
-- ==== Proof.lean ====
/-
  The kernel is a graph convolution (two rounds of degree-normalised propagation along the edges, with self loops)
  whose three feature blocks — the input and the two propagated arrays — are joined side by side and passed through
  a dense layer `feats · W + b`. The propagation is host code shared, operation for operation, with the reference; only
  the dense layer is a Pallas kernel, run block by block over ten blocks of 10000 rows, in bf16 on the matrix unit.

  At the ideal instance a change of float format is the identity and the matrix unit's product into a zero
  accumulator is the plain sum of products, so each block of the kernel's result is the same block of
  `LinearSpec.linear feats W b`, where `feats` is the joined feature array — carried as ONE function of the
  arguments, the reference's own stage for it, and never opened. The reference's result is that same function
  (`RefValue.ref_is_linear`). The three frames: the two kernel programs by the pipeline's frame run behind the host
  prefix (`Hand.frame`), the reference by its run with the result dropped. The idealization rewrote nothing, so
  `preserves` is trivial.
-/
import proofs.«139808_j50783693308333_1_alg».proof.Defs
import proofs.«139808_j50783693308333_1_alg».proof.Proof.Gen.Kernel
import proofs.«139808_j50783693308333_1_alg».proof.Proof.Gen.KernelIdeal
import proofs.«139808_j50783693308333_1_alg».proof.Proof.Gen.ReferenceIdeal
import proofs.«139808_j50783693308333_1_alg».proof.Proof.Gen.Pre_finite_inputs
import proofs.«139808_j50783693308333_1_alg».proof.Proof.KernelFrame
import proofs.«139808_j50783693308333_1_alg».proof.Proof.KernelIdealFrame
import proofs.«139808_j50783693308333_1_alg».proof.Proof.KernelIdealValue
import proofs.«139808_j50783693308333_1_alg».proof.Proof.RefIsLinear
import Idealize.ShloMosaic.Adequacy
import Idealize.ShloMosaic.Init

noncomputable section

namespace Cert.Proof

open Idealize.ShloMosaic Idealize.ShloMosaic.TcCoe Idealize.SL.Sem

/-- The three frames. -/
theorem frame_k : Cert.frame_Kernel := fun m ρ _ => Cert.Kernel.Hand.frame m ρ
theorem frame_ki : Cert.frame_KernelIdeal := fun m ρ _ => Cert.KernelIdeal.Hand.frame m ρ
theorem frame_ri : Cert.frame_ReferenceIdeal := fun m ρ _ =>
  (θ_run Cert.ReferenceIdeal.defs _ _).mono (fun _ h c => (h c).2) (Cert.ReferenceIdeal.ValueP.run (F := Ideal) m ρ)

/-- The ideal pass rewrote no operation. -/
theorem preserves : Cert.preserves_Kernel_KernelIdeal := trivial

/-- Both programs end with the dense layer of the same feature array, the same weights and the same bias. -/
theorem algebraic : Cert.algebraic_KernelIdeal_ReferenceIdeal := by
  intro m ρ m' ρ' _ hagree
  refine ⟨_, Cert.KernelIdeal.HandValue.run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v62_eq, Cert.ReferenceIdeal.RefValue.ref_is_linear,
    (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
